-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S200x64 : Shape := ⟨2, ![200, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S200x64 : S_.BroadcastsInDim S200x64 (![] : Fin 0 → Fin S200x64.rank)
  reducesTo_S200x64_S_d0_1 : S200x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg6 : IVec S1600000 32) (main_v13 : IVec S_ 1) (main_v16 : IVec S200x64 1) : IVec S_ 1 :=
  let main_c_5 : IVec S_ 1 := constantI S_ 1 1#1
  let main_v17 : IVec S_ 1 := (fun x v => Host.reduce IntOp.andi x v reducesTo_S200x64_S_d0_1 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg6 main_v19
  let main_c_7 : IVec S_ 32 := constantI S_ 32 200#32
  let main_v21 : IVec S1600000 32 := broadcastInDim S1600000 ![] bcast_S_S1600000 main_c_7
  let main_v22 : IVec S1600000 1 := cmpi .slt main_arg6 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  main_v25

def fn {F : FTy → Type} [FloatOps F] (main_arg0 : FVec F S100000x64 .f32) (main_arg1 : FVec F S1600000x64 .f32) (main_arg2 : FVec F S200x64 .f32) (main_arg3 : FVec F S200x64 .f32) (main_arg4 : IVec S1600000 32) (main_arg5 : IVec S1600000 32) (main_arg6 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S200x64 .f32 := Host.absf main_arg2
  let main_cst_2 : FVec F S_ .f32 := constant S_ .f32 0x7F800000#32
  let main_v10 : FVec F S200x64 .f32 := broadcastInDim S200x64 ![] bcast_S_S200x64 main_cst_2
  let main_v11 : IVec S200x64 1 := cmpf .olt main_v9 main_v10
  let main_c_3 : IVec S_ 1 := constantI S_ 1 1#1
  let main_v12 : IVec S_ 1 := (fun x v => Host.reduce IntOp.andi x v reducesTo_S200x64_S_d0_1 h_S_) main_v11 main_c_3
  let main_v13 : IVec S_ 1 := andi main_v8 main_v12
  let main_v14 : FVec F S200x64 .f32 := Host.absf main_arg3
  let main_cst_4 : FVec F S_ .f32 := constant S_ .f32 0x7F800000#32
  let main_v15 : FVec F S200x64 .f32 := broadcastInDim S200x64 ![] bcast_S_S200x64 main_cst_4
  let main_v16 : IVec S200x64 1 := cmpf .olt main_v14 main_v15
  fn_part1 (F := F) main_arg6 main_v13 main_v16
-- ==== Kernel.lean ====
abbrev S100000x64 : Shape := ⟨2, ![100000, 64]⟩
abbrev S1600000x64 : Shape := ⟨2, ![1600000, 64]⟩
abbrev S200x64 : Shape := ⟨2, ![200, 64]⟩
abbrev S1600000 : Shape := ⟨1, ![1600000]⟩
abbrev S_ : Shape := ⟨0, ![]⟩
abbrev S256x64 : Shape := ⟨2, ![256, 64]⟩
abbrev S256x128 : Shape := ⟨2, ![256, 128]⟩
abbrev S1600000x1 : Shape := ⟨2, ![1600000, 1]⟩
abbrev S6400x64 : Shape := ⟨2, ![6400, 64]⟩
abbrev S6400x1 : Shape := ⟨2, ![6400, 1]⟩
abbrev S6400x256 : Shape := ⟨2, ![6400, 256]⟩
abbrev S6400x128 : Shape := ⟨2, ![6400, 128]⟩

abbrev nBuf : Space → Nat
  | .hbm => 41
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S200x64, .f32⟩
  | .hbm, ⟨3, _⟩ => ⟨S200x64, .f32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S_, .i32⟩
  | .hbm, ⟨16, _⟩ => ⟨S_, .f32⟩
  | .hbm, ⟨17, _⟩ => ⟨S256x64, .f32⟩
  | .hbm, ⟨18, _⟩ => ⟨S256x64, .bf16⟩
  | .hbm, ⟨19, _⟩ => ⟨S_, .i32⟩
  | .hbm, ⟨20, _⟩ => ⟨S_, .f32⟩
  | .hbm, ⟨21, _⟩ => ⟨S256x64, .f32⟩
  | .hbm, ⟨22, _⟩ => ⟨S256x64, .bf16⟩
  | .hbm, ⟨23, _⟩ => ⟨S256x128, .bf16⟩
  | .hbm, ⟨24, _⟩ => ⟨S1600000x1, .i32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S1600000x64, .bf16⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x1, .i32⟩
  | .local _ .vmem, ⟨5, _⟩ => ⟨S6400x1, .i32⟩
  | .local _ .vmem, ⟨6, _⟩ => ⟨S256x128, .bf16⟩
  | .local _ .vmem, ⟨7, _⟩ => ⟨S6400x64, .bf16⟩
  | .local _ .vmem, ⟨8, _⟩ => ⟨S6400x64, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_c_1 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_c_2 : Ref sig .tc := ⟨.hbm, 19, rfl⟩
abbrev main_call2_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_v7 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  pads_S200x64_S256x64_0560_000 : S200x64.Pads (![0, 0] : Fin 2 → Nat) ![56, 0] ![0, 0] S256x64
  h_S_ : 0 < S_.numel
  bitsLt_bf16_f32 : FTy.bits .bf16 < FTy.bits .f32
  concatenates_S256x64_S256x64_S256x128_d1 : Shape.Concatenates [S256x64, S256x64] S256x128 1
  shapeCasts_S1600000_S1600000x1 : S1600000.ShapeCasts S1600000x1
  bcast_S1600000_S1600000x1_0 : S1600000.BroadcastsInDim S1600000x1 (![0] : Fin 1 → Fin S1600000x1.rank)
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  iota_S6400x256_d1_w32 : S6400x256.Iotas .tc 32 [1]
  broadcasts_S6400x1_S6400x256 : S6400x1.Broadcasts S6400x256
  natLt_1_32 : 1 < 32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S6400x128_o0_0_S6400x64 : S6400x128.Slices ![0, 0] S6400x64
  slices_S6400x128_o0_64_S6400x64 : S6400x128.Slices ![0, 64] S6400x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  packedbf16_S6400x64_S6400x64_0_0 : (Rect.unit (s := S6400x64) ![0, 0] S6400x64.size inb_S6400x64_S6400x64_0_0).PackedRows (EltTy.packing .bf16)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S6400x256_S256x128_S6400x128_1_0_0_1_n_n_wf : DotDims.WF S6400x256 S256x128 S6400x128 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S1600000x1.size a
  hwx0_2 : ∀ i : grid0.Coords, EltTy.bits .i32 = 32 ∨ (Rect.block (s := S1600000x1) S6400x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x64.size a ≤ S1600000x64.size a
  hwx0_4 : ∀ i : grid0.Coords, EltTy.bits .bf16 = 32 ∨ (Rect.block (s := S1600000x64) S6400x64.size (cc0_transform_4 i) (hinb0_4 i)).WholeWords (EltTy.packing .bf16)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v13) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S6400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S200x64 : Shape := ⟨2, ![200, 64]⟩
abbrev S1600000 : Shape := ⟨1, ![1600000]⟩
abbrev S_ : Shape := ⟨0, ![]⟩
abbrev S1600000x1 : Shape := ⟨2, ![1600000, 1]⟩

abbrev nBuf : Space → Nat
  | .hbm => 42
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S200x64, .f32⟩
  | .hbm, ⟨3, _⟩ => ⟨S200x64, .f32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  gather_S200x64_S1600000x1_S1600000x64_1_0_n_n_0_1_164_wf : GatherDims.WF S200x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S200x64_S1600000x1_S1600000x64_1_0_n_n_0_1_164 : GatherDims S200x64 S1600000x1 S1600000x64 where
  offsetDims := [1]
  collapsedSliceDims := [0]
  operandBatchingDims := []
  startIndicesBatchingDims := []
  startIndexMap := [0]
  indexVectorDim := 1
  sliceSizes := ![1, 64]
  wf := gather_S200x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.PreDecode.lean ====
/-
  The precondition, read back at one edge.

  The precondition is a conjunction of `all`s: the four float inputs finite, and every relation number in `[0, 200)`.
  Its last conjunct is an `and`-reduction over all edges of the bit `(0 ≤ rel k) ∧ (rel k < 200)`, both comparisons
  signed; the whole being 1, that bit is 1 at every edge.
-/
import proofs.«428302_j33526514713105_3_alg».proof.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable [Facts]

instance : Subsingleton S_.Idx := ⟨fun a b => funext fun d => d.elim0⟩

/-- Under the precondition every relation number, read signed, lies in `[0, 200)`. -/
theorem rel_range {F : FTy → Type} [FloatOps F] (a0 : FVec F S100000x64 .f32) (a1 : FVec F S1600000x64 .f32)
    (a2 a3 : FVec F S200x64 .f32) (a4 a5 a6 : IVec S1600000 32)
    (h : fn (F := F) a0 a1 a2 a3 a4 a5 a6 = fun _ => 1#1) (k : S1600000.Idx) :
    0 ≤ (a6 k).toInt ∧ (a6 k).toInt < 200 := by
  have h0 := congrFun h ix0
  dsimp only [fn, fn_part1] at h0
  have h1 := (IntOp.andi_eq_one.1 h0).2
  have h2 := Host.reduce_andi_all _ _ _ _ _ h1 k
  obtain ⟨hge, hlt⟩ := IntOp.andi_eq_one.1 h2
  have hge' := IntOp.cmpi_sge.1 hge
  have hlt' := IntOp.cmpi_slt.1 hlt
  refine ⟨?_, ?_⟩
  · have e : (broadcastInDim S1600000 ![] Facts.bcast_S_S1600000 (constantI S_ 32 0#32) k).toInt = 0 := by
      show (0#32 : BitVec 32).toInt = 0; decide
    rw [e] at hge'; exact hge'
  · have e : (broadcastInDim S1600000 ![] Facts.bcast_S_S1600000 (constantI S_ 32 200#32) k).toInt = 200 := by
      show (200#32 : BitVec 32).toInt = 200; decide
    rw [e] at hlt'; exact hlt'

end Cert.Pre_finite_inputs.Decode

end
-- ==== Proof.OneHot.lean ====
/-
  A one-hot row contracted with a table.

  The kernel selects row `r` of a table by multiplying it with the indicator row `[r = 0, r = 1, …, r = K - 1]` and
  summing: over the extended reals the indicator's entries are exactly `1` and `0`, `0 · x = 0` for every `x` (infinite
  ones included) and `1 · x = x`, so the sum over `j < K` of `[r = j] · T j` is `T r` whenever `r < K`, with no
  finiteness needed of the table.
-/
import Idealize.ShloMosaic.PureOps.Ideal
import Mathlib.Algebra.BigOperators.Group.Finset.Basic

noncomputable section

namespace Cert.OneHot

open Idealize.ShloMosaic

/-- The indicator entry as the kernel computes it — the one-bit comparison widened to a 32-bit word, read as a signed
    integer and converted to a float — is `1` where the two words are equal and `0` elsewhere. -/
theorem entry (a b : BitVec 32) :
    ((((IntOp.cmpi .eq a b).setWidth 32).toInt : ℝ) : EReal) = if a = b then 1 else 0 := by
  by_cases h : a = b
  · subst h
    rw [if_pos rfl]
    have : (IntOp.cmpi .eq a a).setWidth 32 = 1#32 := by simp [IntOp.cmpi]
    rw [this]; simp
  · rw [if_neg h]
    have hb : (a == b) = false := by simpa using h
    have : (IntOp.cmpi .eq a b).setWidth 32 = 0#32 := by simp [IntOp.cmpi, hb]
    rw [this]; simp

/-- The indicator row of `r` summed against `T` is `T r`, for `r` below the row's length `K ≤ 2 ^ 32` (so that a position
    `j < K` is the word of `j`). -/
theorem sum_eq {K : Nat} (hK : K ≤ 2 ^ 32) (r : BitVec 32) (hr : r.toNat < K) (T : Fin K → EReal) :
    ∑ j : Fin K, ((((IntOp.cmpi .eq r (BitVec.ofNat 32 j.val)).setWidth 32).toInt : ℝ) : EReal) * T j
      = T ⟨r.toNat, hr⟩ := by
  rw [Finset.sum_eq_single (⟨r.toNat, hr⟩ : Fin K)]
  · rw [entry, if_pos (by simp), one_mul]
  · intro j _ hj
    rw [entry, if_neg, zero_mul]
    intro e
    apply hj
    apply Fin.ext
    have hj2 : j.val < 2 ^ 32 := lt_of_lt_of_le j.isLt hK
    have := congrArg BitVec.toNat e
    simp only [BitVec.toNat_ofNat] at this
    rw [Nat.mod_eq_of_lt hj2] at this
    exact this.symm
  · intro h; exact absurd (Finset.mem_univ _) h

end Cert.OneHot

end
-- ==== Proof.KernelPay.lean ====
/-
  The kernel body's stored value at an index, over the extended reals.

  For one block of 6400 edges the body builds, from the block's column of relation numbers, the 6400 × 256 indicator
  matrix (row `p` is the indicator of edge `p`'s relation number among 0 … 255), multiplies it with the 256 × 128 table
  (columns 0 … 63 the padded weight rows, columns 64 … 127 the padded attention rows) and stores
  `h_src · (columns 0 … 63 of the product) + e · (columns 64 … 127 of the product)`. Read at entry `(p, q)`, with the matrix
  product an exact sum and every change of float format the identity, that is
  `h_src[p, q] · Σ_j [rel p = j] · table[j, q] + e[p, q] · Σ_j [rel p = j] · table[j, 64 + q]`.
-/
import proofs.«428302_j33526514713105_3_alg».proof.Proof.Gen.KernelIdeal.Skeleton
import proofs.«428302_j33526514713105_3_alg».proof.Proof.OneHot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The indicator entry `[r = j]` as the body computes it: the comparison's bit widened, read signed, converted. -/
abbrev ind (r : BitVec 32) (j : Fin 256) : EReal :=
  ((((IntOp.cmpi .eq r (BitVec.ofNat 32 j.val)).setWidth 32).toInt : ℝ) : EReal)

/-- The indicator matrix of a block's column of relation numbers. -/
def indicator (x2 : IVec S6400x1 32) : FVec Ideal S6400x256 .bf16 :=
  truncf .bf16 (sitofp .f32 (extui 32 (cmpi .eq
    (broadcastTo S6400x256 (shapeCast S6400x1 x2 shapeCasts_S6400x1_S6400x1) broadcasts_S6400x1_S6400x256)
    (iota .tc S6400x256 32 [1] iota_S6400x256_d1_w32)) natLt_1_32)) bitsLt_bf16_f32

/-- The indicator matrix times the table, into a zero accumulator. -/
def product (x2 : IVec S6400x1 32) (x3 : FVec Ideal S256x128 .bf16) : FVec Ideal S6400x128 .f32 :=
  matmul dot_S6400x256_S256x128_S6400x128_1_0_0_1_n_n none (indicator x2)
    (shapeCast S256x128 x3 shapeCasts_S256x128_S256x128) (constant S6400x128 .f32 0x00000000#32)

/-- The stored value is the two products of the loaded blocks with the two halves of that matrix product, added. -/
theorem pay_eq (x2 : IVec S6400x1 32) (x3 : FVec Ideal S256x128 .bf16) (x0 x1 : FVec Ideal S6400x64 .f32) :
    k0_pay1 x2 x3 x0 x1 = truncf .bf16 (addf
      (mulf (shapeCast S6400x64 x0 shapeCasts_S6400x64_S6400x64)
        (extractStridedSlice S6400x64 ![0, 0] (product x2 x3) slices_S6400x128_o0_0_S6400x64))
      (mulf x1 (extractStridedSlice S6400x64 ![0, 64] (product x2 x3) slices_S6400x128_o0_64_S6400x64)))
      bitsLt_bf16_f32 := rfl

/-- Row `p`, position `j` of the indicator matrix is `[rel p = j]`: the column of relation numbers is broadcast along the
    row, the iota along the row is the position. -/
theorem indicator_apply (x2 : IVec S6400x1 32) (p : Fin 6400) (j : Fin 256) :
    indicator x2 (ix2 p j) = ind (x2 (ix2 p (0 : Fin 1))) j := by
  unfold indicator
  show ((((IntOp.cmpi .eq
      (broadcastTo S6400x256 (shapeCast S6400x1 x2 shapeCasts_S6400x1_S6400x1) broadcasts_S6400x1_S6400x256 (ix2 p j))
      (iota .tc S6400x256 32 [1] iota_S6400x256_d1_w32 (ix2 p j))).setWidth 32).toInt : ℝ) : EReal) = _
  rw [broadcastTo_apply _ _ (ix2 p j) (ix2 p (0 : Fin 1)) (fun a => by
      match a with
      | ⟨0, _⟩ => rfl
      | ⟨1, _⟩ => rfl),
    iota_single_apply, shapeCast_self]

/-! The matrix product's operand indices, axis by axis: the left operand is read at (result row, contraction index),
    the right at (contraction index, result column). -/

theorem lhs_0 (i : S6400x128.Idx) (q : dot_S6400x256_S256x128_S6400x128_1_0_0_1_n_n.contr.Idx) :
    (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide),
    dif_pos (show (0 : Fin S6400x256.rank) ∈ dot_S6400x256_S256x128_S6400x128_1_0_0_1_n_n.lhsNonContracting by decide)]
  rfl
theorem lhs_1 (i : S6400x128.Idx) (q : dot_S6400x256_S256x128_S6400x128_1_0_0_1_n_n.contr.Idx) :
    (dot_S6400x256_S256x128_S6400x128_1_0_0_1_n_n.lhsIdx i q 1).val = (q ⟨0, by decide⟩).val :=
  dot_S6400x256_S256x128_S6400x128_1_0_0_1_n_n.lhsIdx_val_of_single rfl i q
theorem rhs_0 (i : S6400x128.Idx) (q : dot_S6400x256_S256x128_S6400x128_1_0_0_1_n_n.contr.Idx) :
    (dot_S6400x256_S256x128_S6400x128_1_0_0_1_n_n.rhsIdx i q 0).val = (q ⟨0, by decide⟩).val :=
  dot_S6400x256_S256x128_S6400x128_1_0_0_1_n_n.rhsIdx_val_of_single rfl i q
theorem rhs_1 (i : S6400x128.Idx) (q : dot_S6400x256_S256x128_S6400x128_1_0_0_1_n_n.contr.Idx) :
    (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide),
    dif_pos (show (1 : Fin S256x128.rank) ∈ dot_S6400x256_S256x128_S6400x128_1_0_0_1_n_n.rhsNonContracting by decide)]
  rfl

/-- Entry `(p, c)` of the matrix product is the sum over the 256 positions of `[rel p = j] · table[j, c]`. -/
theorem product_apply (x2 : IVec S6400x1 32) (x3 : FVec Ideal S256x128 .bf16) (p : Fin 6400) (c : Fin 128) :
    product x2 x3 (ix2 p c) = ∑ j : Fin 256, ind (x2 (ix2 p (0 : Fin 1))) j * x3 (ix2 j c) := by
  unfold product
  simp only [matmul]
  rw [Ideal.matmul_constant_zero_apply,
    ← Equiv.sum_comp (ValueIdx.contrEquiv1 dot_S6400x256_S256x128_S6400x128_1_0_0_1_n_n 256 rfl rfl).symm]
  refine Finset.sum_congr rfl fun k _ => ?_
  have hk := ValueIdx.contrEquiv1_symm_val dot_S6400x256_S256x128_S6400x128_1_0_0_1_n_n 256 rfl rfl k
  have el : dot_S6400x256_S256x128_S6400x128_1_0_0_1_n_n.lhsIdx (ix2 p c)
      ((ValueIdx.contrEquiv1 dot_S6400x256_S256x128_S6400x128_1_0_0_1_n_n 256 rfl rfl).symm k) = ix2 p k :=
    funext fun a => Fin.ext (by
      match a with
      | ⟨0, _⟩ => exact lhs_0 _ _
      | ⟨1, _⟩ => exact (lhs_1 _ _).trans hk)
  have er : dot_S6400x256_S256x128_S6400x128_1_0_0_1_n_n.rhsIdx (ix2 p c)
      ((ValueIdx.contrEquiv1 dot_S6400x256_S256x128_S6400x128_1_0_0_1_n_n 256 rfl rfl).symm k) = ix2 k c :=
    funext fun a => Fin.ext (by
      match a with
      | ⟨0, _⟩ => exact (rhs_0 _ _).trans hk
      | ⟨1, _⟩ => exact rhs_1 _ _)
  rw [el, er, indicator_apply, shapeCast_self]

/-- THE STORED VALUE AT `(p, q)`. -/
theorem pay_apply (x2 : IVec S6400x1 32) (x3 : FVec Ideal S256x128 .bf16) (x0 x1 : FVec Ideal S6400x64 .f32)
    (p : Fin 6400) (q : Fin 64) :
    (k0_pay1 (F := Ideal) x2 x3 x0 x1 (ix2 p q) : EReal)
      = (x0 (ix2 p q) : EReal) * (∑ j : Fin 256, ind (x2 (ix2 p (0 : Fin 1))) j * x3 (ix2 j ⟨0 + q.val, by omega⟩))
        + x1 (ix2 p q) * (∑ j : Fin 256, ind (x2 (ix2 p (0 : Fin 1))) j * x3 (ix2 j ⟨64 + q.val, by omega⟩)) := by
  rw [pay_eq]
  show shapeCast S6400x64 x0 shapeCasts_S6400x64_S6400x64 (ix2 p q)
        * extractStridedSlice S6400x64 ![0, 0] (product x2 x3) slices_S6400x128_o0_0_S6400x64 (ix2 p q)
      + x1 (ix2 p q) * extractStridedSlice S6400x64 ![0, 64] (product x2 x3) slices_S6400x128_o0_64_S6400x64 (ix2 p q) = _
  rw [shapeCast_self, slice2_axis1_eq, slice2_axis1_eq, product_apply, product_apply]

end Cert.KernelIdeal.Pay

end
-- ==== Proof.KernelMsg.lean ====
/-
  The message array the kernel's region leaves, as ONE function of the arrays the region finds.

  The region runs over 250 blocks of 6400 edges. Block `t` of the output is computed from block `t` of the gathered
  source rows, block `t` of the edge features, block `t` of the column of relation numbers, and the whole table; so the
  output array is, entry by entry, one function `msg` of those four arrays:
  `msg[k, q] = h_src[k, q] · Σ_j [rel k = j] · table[j, q] + e[k, q] · Σ_j [rel k = j] · table[j, 64 + q]`.
  The blocks tile the array (edge `k` lies in block `k / 6400`), so after the region the array IS `msg`.
-/
import proofs.«428302_j33526514713105_3_alg».proof.Proof.Gen.KernelIdeal.Frame
import proofs.«428302_j33526514713105_3_alg».proof.Proof.KernelPay
import Idealize.ShloMosaic.Lib.Pipeline.Value

set_option maxRecDepth 16384

noncomputable section

namespace Cert.KernelIdeal.Msg

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The edge an entry of an edge-by-feature array belongs to, and its feature. -/
abbrev edge (i : S1600000x64.Idx) : Fin 1600000 := ⟨(i 0).val, idx2_lt0 i⟩
abbrev feat (i : S1600000x64.Idx) : Fin 64 := ⟨(i 1).val, idx2_lt1 i⟩

/-- The message array as one function of the gathered source rows `X`, the edge features `E`, the column of relation
    numbers `R` and the table `T`. -/
def msg (X E : FVec Ideal S1600000x64 .f32) (R : IVec S1600000x1 32) (T : FVec Ideal S256x128 .bf16) :
    FVec Ideal S1600000x64 .bf16 := fun i =>
  ((X i : EReal) * (∑ j : Fin 256, Pay.ind (R (ix2 (edge i) (0 : Fin 1))) j
      * (T (ix2 j ⟨0 + (feat i).val, by have := (feat i).isLt; omega⟩) : EReal))
    + (E i : EReal) * (∑ j : Fin 256, Pay.ind (R (ix2 (edge i) (0 : Fin 1))) j
      * (T (ix2 j ⟨64 + (feat i).val, by have := (feat i).isLt; omega⟩) : EReal)) : EReal)

/-- The body's stored value at any index of a block, over blocks of the literal types. -/
theorem pay_at (x2 : IVec S6400x1 32) (x3 : FVec Ideal S256x128 .bf16) (x0 x1 : FVec Ideal S6400x64 .f32) (y : S6400x64.Idx) :
    (k0_pay1 (F := Ideal) x2 x3 x0 x1 y : EReal)
      = (x0 y : EReal) * (∑ j : Fin 256, Pay.ind (x2 (ix2 (⟨(y 0).val, idx2_lt0 y⟩ : Fin 6400) (0 : Fin 1))) j
          * (x3 (ix2 j ⟨0 + (y 1).val, by have := idx2_lt1 y; omega⟩) : EReal))
        + (x1 y : EReal) * (∑ j : Fin 256, Pay.ind (x2 (ix2 (⟨(y 0).val, idx2_lt0 y⟩ : Fin 6400) (0 : Fin 1))) j
          * (x3 (ix2 j ⟨64 + (y 1).val, by have := idx2_lt1 y; omega⟩) : EReal)) := by
  obtain ⟨p, q, rfl⟩ : ∃ (p : Fin 6400) (q : Fin 64), y = ix2 p q := ⟨y 0, y 1, eq_ix2 y⟩
  exact Pay.pay_apply x2 x3 x0 x1 p q

/-- The printed index maps, decided over the 250 points: the three edge-blocked inputs move with the output along the
    edge axis, the table's window stays put, and the output's block number is the point's number. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

/-- WHAT POINT `t` WRITES BACK is block `t` of `msg` of the arrays as the region finds them. -/
theorem flushed_eq (c : Dev nD) (t : Fin cfg0.N) :
    (dats m 0 c).flushed 4 t = ((cfg0.win 4).blk t).view.read (Elt Ideal)
      (msg (V m c main_v13) (V m c main_arg1) (V m c main_v6) (V m c main_v5)) := by
  show (cfg0.win 4).cut (grid0.coords t) ((dats m 0 c).after 4 t) = _
  rw [after0_4]
  unfold out0_4
  rw [View.canon_unit_zero hz]
  simp only [View.ld_unit_zero (S := S6400x1) hz, View.ld_unit_zero (S := S256x128) hz, View.ld_unit_zero (S := S6400x64) hz]
  obtain ⟨e0, e0', e1, e1', e2, e2', e3, e3', e4', e4⟩ := idx_facts t
  funext y
  show (k0_pay1 (F := Ideal) (iblk m c 2 t) (iblk m c 3 t) (iblk m c 0 t) (iblk m c 1 t) y : EReal)
    = msg (V m c main_v13) (V m c main_arg1) (V m c main_v6) (V m c main_v5) (((cfg0.win 4).blk t).view.emb y)
  refine (pay_at (iblk m c 2 t) (iblk m c 3 t) (iblk m c 0 t) (iblk m c 1 t) y).trans ?_
  -- the array index of entry `y` of block `t`: edge `6400 t + y₀`, feature `y₁`
  have hy0 : (y 0).val < 6400 := (y 0).isLt
  have hy1 : (y 1).val < 64 := (y 1).isLt
  have ht : t.val < 250 := lt_of_lt_of_eq t.isLt N_0
  have hemb : ((cfg0.win 4).blk t).view.emb y
      = ix2 (⟨t.val * 6400 + (y 0).val, by omega⟩ : Fin 1600000) (⟨(y 1).val, hy1⟩ : Fin 64) :=
    funext fun a => Fin.ext (by
      match a with
      | ⟨0, _⟩ => show win0_4.index t (0 : Fin 2) * 6400 + 1 * (y 0).val = t.val * 6400 + (y 0).val; omega
      | ⟨1, _⟩ => show win0_4.index t (1 : Fin 2) * 64 + 1 * (y 1).val = (y 1).val; omega)
  have hX : iblk m c 0 t y
      = V m c main_v13 (ix2 (⟨t.val * 6400 + (y 0).val, by omega⟩ : Fin 1600000) (⟨(y 1).val, hy1⟩ : Fin 64)) := by
    show V m c main_v13 (((cfg0.win 0).blk t).view.emb y) = _
    refine congrArg (V m c main_v13) (funext fun a => Fin.ext ?_)
    match a with
    | ⟨0, _⟩ => show win0_0.index t (0 : Fin 2) * 6400 + 1 * (y 0).val = t.val * 6400 + (y 0).val; omega
    | ⟨1, _⟩ => show win0_0.index t (1 : Fin 2) * 64 + 1 * (y 1).val = (y 1).val; omega
  have hE : iblk m c 1 t y
      = V m c main_arg1 (ix2 (⟨t.val * 6400 + (y 0).val, by omega⟩ : Fin 1600000) (⟨(y 1).val, hy1⟩ : Fin 64)) := by
    show V m c main_arg1 (((cfg0.win 1).blk t).view.emb y) = _
    refine congrArg (V m c main_arg1) (funext fun a => Fin.ext ?_)
    match a with
    | ⟨0, _⟩ => show win0_1.index t (0 : Fin 2) * 6400 + 1 * (y 0).val = t.val * 6400 + (y 0).val; omega
    | ⟨1, _⟩ => show win0_1.index t (1 : Fin 2) * 64 + 1 * (y 1).val = (y 1).val; omega
  have hR : iblk m c 2 t (ix2 (⟨(y 0).val, idx2_lt0 y⟩ : Fin 6400) (0 : Fin 1))
      = V m c main_v6 (ix2 (⟨t.val * 6400 + (y 0).val, by omega⟩ : Fin 1600000) (0 : Fin 1)) := by
    show V m c main_v6 (((cfg0.win 2).blk t).view.emb (ix2 (⟨(y 0).val, idx2_lt0 y⟩ : Fin 6400) (0 : Fin 1))) = _
    refine congrArg (V m c main_v6) (funext fun a => Fin.ext ?_)
    match a with
    | ⟨0, _⟩ => show win0_2.index t (0 : Fin 2) * 6400 + 1 * (y 0).val = t.val * 6400 + (y 0).val; omega
    | ⟨1, _⟩ => show win0_2.index t (1 : Fin 2) * 1 + 1 * 0 = 0; omega
  have hT : ∀ (j : Fin 256) (c' : Fin 128), iblk m c 3 t (ix2 j c') = V m c main_v5 (ix2 j c') := by
    intro j c'
    show V m c main_v5 (((cfg0.win 3).blk t).view.emb (ix2 j c')) = _
    refine congrArg (V m c main_v5) (funext fun a => Fin.ext ?_)
    match a with
    | ⟨0, _⟩ => show win0_3.index t (0 : Fin 2) * 256 + 1 * j.val = j.val; omega
    | ⟨1, _⟩ => show win0_3.index t (1 : Fin 2) * 128 + 1 * c'.val = c'.val; omega
  rw [hemb, hX, hE, hR]
  simp only [hT]
  rfl

/-- An index of the array is in point `t`'s block iff each coordinate is in the block's range on its axis. -/
theorem mem_blk (t : Fin cfg0.N) (i : S1600000x64.Idx) :
    i ∈ ((cfg0.win 4).blk t).view.set ↔ ∀ a : Fin 2, win0_4.index t a * S6400x64.size a ≤ (i a).val
      ∧ (i a).val < win0_4.index t a * S6400x64.size a + S6400x64.size a := by
  show i ∈ ((View.whole main_v14).slice (win0_4.rect t)).set ↔ _
  rw [View.set_slice_whole, Rect.mem_set_unit]
  exact Iff.rfl

/-- The blocks tile the array: edge `k` lies in block `k / 6400`, and every point writes its block back. -/
theorem cover (i : S1600000x64.Idx) :
    ∃ t : Fin cfg0.N, (cfg0.win 4).flush t = true ∧ i ∈ ((cfg0.win 4).blk t).view.set := by
  have hi0 : (i 0).val < 1600000 := idx2_lt0 i
  have hi1 : (i 1).val < 64 := idx2_lt1 i
  have hN : cfg0.N = 250 := N_0
  let t : Fin cfg0.N := ⟨(i 0).val / 6400, by rw [hN]; omega⟩
  obtain ⟨-, -, -, -, -, -, -, -, e4', e4⟩ := idx_facts t
  have e4v : win0_4.index t (0 : Fin 2) = (i 0).val / 6400 := e4
  refine ⟨t, flush0_4 t, ?_⟩
  rw [mem_blk]
  intro a
  match a with
  | ⟨0, _⟩ =>
    show win0_4.index t (0 : Fin 2) * 6400 ≤ (i 0).val ∧ (i 0).val < win0_4.index t (0 : Fin 2) * 6400 + 6400
    omega
  | ⟨1, _⟩ =>
    show win0_4.index t (1 : Fin 2) * 64 ≤ (i 1).val ∧ (i 1).val < win0_4.index t (1 : Fin 2) * 64 + 64
    omega

/-- THE ARRAY after the region: `msg` of the arrays the region found. -/
theorem final (c : Dev nD) : (dats m 0 c).arrAt 4 cfg0.N
    = msg (V m c main_v13) (V m c main_arg1) (V m c main_v6) (V m c main_v5) :=
  (dats m 0 c).arrAt_eq_of_cover 4 _ (fun t _ => flushed_eq m c t) cover

end Cert.KernelIdeal.Msg

end
-- ==== Proof.KernelTable.lean ====
/-
  What the kernel's indicator contraction reads, for a relation number in `[0, 200)`.

  Before the region the host clips the relation numbers into `[0, 199]` (the identity on `[0, 200)`), lays them out as a
  column, pads the 200 weight rows and the 200 attention rows with 56 zero rows each and puts the two padded tables side
  by side: table entry `(j, q)` for `j < 200`, `q < 64` is `weight[j, q]`, and entry `(j, 64 + q)` is `attention[j, q]`.
  So the contraction of edge `k`'s indicator row with column `q` of the table is `weight[rel k, q]`, and with column
  `64 + q` it is `attention[rel k, q]`.
-/
import proofs.«428302_j33526514713105_3_alg».proof.Proof.Gen.KernelIdeal.Frame
import proofs.«428302_j33526514713105_3_alg».proof.Proof.KernelPay
import proofs.«428302_j33526514713105_3_alg».proof.Proof.OneHot
import Idealize.ShloMosaic.Lib.Pipeline.Value
import Idealize.ShloMosaic.Lib.KernelVsHost
import Idealize.ShloMosaic.Lib.StableHlo.Run
import Idealize.ShloMosaic.Lib.Affine

noncomputable section

namespace Cert.KernelIdeal.Table

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The two padded tables side by side. -/
def table (W A : FVec Ideal S200x64 .f32) : FVec Ideal S256x128 .bf16 :=
  concatenate S256x128 1
    [⟨S256x64, truncf .bf16 (pad S256x64 ![0, 0] ![56, 0] ![0, 0] W (sitofp (F := Ideal) .f32 (constantI S_ 32 0#32))
        pads_S200x64_S256x64_0560_000 h_S_) bitsLt_bf16_f32⟩,
     ⟨S256x64, truncf .bf16 (pad S256x64 ![0, 0] ![56, 0] ![0, 0] A (sitofp (F := Ideal) .f32 (constantI S_ 32 0#32))
        pads_S200x64_S256x64_0560_000 h_S_) bitsLt_bf16_f32⟩]
    concatenates_S256x64_S256x64_S256x128_d1

/-- The column of clipped relation numbers. -/
def clipped (rel : IVec S1600000 32) : IVec S1600000x1 32 :=
  shapeCast S1600000x1
    (minsi (broadcastInDim S1600000 ![] bcast_S_S1600000 (constantI S_ 32 199#32))
      (maxsi (broadcastInDim S1600000 ![] bcast_S_S1600000 (constantI S_ 32 0#32)) rel))
    shapeCasts_S1600000_S1600000x1

/-- The table the region finds is the two padded argument tables side by side. -/
theorem V_table (c : Dev nD) : (V m c main_v5 : FVec Ideal S256x128 .bf16)
    = table (m ((c : Thread nD τ).loc main_arg2)) (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The column of relation numbers the region finds is the clipped argument. -/
theorem V_rel (c : Dev nD) : (V m c main_v6 : IVec S1600000x1 32) = clipped (m ((c : Thread nD τ).loc main_arg6)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Clipping into `[0, 199]` leaves a relation number of `[0, 200)` alone; the column's entry `(k, 0)` is edge `k`'s. -/
theorem clipped_apply (rel : IVec S1600000 32) (k : Fin 1600000)
    (hr : 0 ≤ (rel (ix1 k)).toInt ∧ (rel (ix1 k)).toInt < 200) :
    clipped rel (ix2 k (0 : Fin 1)) = rel (ix1 k) := by
  unfold clipped
  rw [shapeCast_apply _ _ (ix2 k (0 : Fin 1)) (ix1 k) (by
    rw [Shape.rowMajor_val_one, Shape.rowMajor_val_two]
    show k.val = k.val * 1 + 0
    omega)]
  have z0 : (0#32 : BitVec 32).toInt = 0 := by decide
  have z199 : (199#32 : BitVec 32).toInt = 199 := by decide
  have h1 : ¬ ((rel (ix1 k)).slt 0#32 = true) := fun h => by
    have h' := BitVec.slt_iff_toInt_lt.1 h; rw [z0] at h'; omega
  have h2 : ¬ ((199#32 : BitVec 32).slt (rel (ix1 k)) = true) := fun h => by
    have h' := BitVec.slt_iff_toInt_lt.1 h; rw [z199] at h'; omega
  show (if (199#32 : BitVec 32).slt (if (rel (ix1 k)).slt 0#32 then 0#32 else rel (ix1 k)) then 199#32
      else (if (rel (ix1 k)).slt 0#32 then 0#32 else rel (ix1 k))) = rel (ix1 k)
  rw [if_neg h1, if_neg h2]

/-- Row `r < 200`, column `q` of the table is the weight entry `(r, q)`. -/
theorem table_left (W A : FVec Ideal S200x64 .f32) (r : Fin 256) (hr : r.val < 200) (q : Fin 64) :
    (table W A (ix2 r (⟨0 + q.val, by omega⟩ : Fin 128)) : EReal) = W (ix2 (⟨r.val, hr⟩ : Fin 200) q) := by
  unfold table
  rw [concatenate_pair_apply_left (t := S256x128) (s₁ := S256x64) (s₂ := S256x64) (1 : Fin 2) _ _ _ (ix2 r (⟨0 + q.val, by omega⟩ : Fin 128)) rfl (ix2 r q) (fun b => by
    match b with
    | ⟨0, _⟩ => rfl
    | ⟨1, _⟩ => show q.val = 0 + q.val; omega)]
  show pad S256x64 ![0, 0] ![56, 0] ![0, 0] W (sitofp (F := Ideal) .f32 (constantI S_ 32 0#32))
      pads_S200x64_S256x64_0560_000 h_S_ (ix2 r q) = _
  exact pad_apply_of_inside _ _ _ W _ _ _ (ix2 r q) (ix2 (⟨r.val, hr⟩ : Fin 200) q) (fun a => by
    match a with
    | ⟨0, _⟩ => show r.val = 0 + r.val * (0 + 1); omega
    | ⟨1, _⟩ => show q.val = 0 + q.val * (0 + 1); omega)

/-- Row `r < 200`, column `64 + q` of the table is the attention entry `(r, q)`. -/
theorem table_right (W A : FVec Ideal S200x64 .f32) (r : Fin 256) (hr : r.val < 200) (q : Fin 64) :
    (table W A (ix2 r (⟨64 + q.val, by omega⟩ : Fin 128)) : EReal) = A (ix2 (⟨r.val, hr⟩ : Fin 200) q) := by
  unfold table
  rw [concatenate_pair_apply_right (t := S256x128) (s₁ := S256x64) (s₂ := S256x64) (1 : Fin 2) _ _ _ (ix2 r (⟨64 + q.val, by omega⟩ : Fin 128)) rfl rfl (ix2 r q)
    (fun b hb => by
      match b with
      | ⟨0, _⟩ => rfl
      | ⟨1, _⟩ => exact absurd rfl hb)
    (show q.val + 64 = 64 + q.val by omega)]
  show pad S256x64 ![0, 0] ![56, 0] ![0, 0] A (sitofp (F := Ideal) .f32 (constantI S_ 32 0#32))
      pads_S200x64_S256x64_0560_000 h_S_ (ix2 r q) = _
  exact pad_apply_of_inside _ _ _ A _ _ _ (ix2 r q) (ix2 (⟨r.val, hr⟩ : Fin 200) q) (fun a => by
    match a with
    | ⟨0, _⟩ => show r.val = 0 + r.val * (0 + 1); omega
    | ⟨1, _⟩ => show q.val = 0 + q.val * (0 + 1); omega)

/-- THE CONTRACTION with the table's column `q`: the weight entry `(rel k, q)`. -/
theorem sum_left (W A : FVec Ideal S200x64 .f32) (rel : IVec S1600000 32) (k : Fin 1600000) (q : Fin 64)
    (hr : 0 ≤ (rel (ix1 k)).toInt ∧ (rel (ix1 k)).toInt < 200) (hlt : (rel (ix1 k)).toNat < 200) :
    ∑ j : Fin 256, Pay.ind (clipped rel (ix2 k (0 : Fin 1))) j
        * (table W A (ix2 j (⟨0 + q.val, by omega⟩ : Fin 128)) : EReal)
      = W (ix2 (⟨(rel (ix1 k)).toNat, hlt⟩ : Fin 200) q) := by
  rw [clipped_apply rel k hr]
  rw [Cert.OneHot.sum_eq (K := 256) (by decide) (rel (ix1 k)) (by omega)
    (fun j => (table W A (ix2 j (⟨0 + q.val, by omega⟩ : Fin 128)) : EReal))]
  exact table_left W A ⟨(rel (ix1 k)).toNat, by omega⟩ hlt q

/-- THE CONTRACTION with the table's column `64 + q`: the attention entry `(rel k, q)`. -/
theorem sum_right (W A : FVec Ideal S200x64 .f32) (rel : IVec S1600000 32) (k : Fin 1600000) (q : Fin 64)
    (hr : 0 ≤ (rel (ix1 k)).toInt ∧ (rel (ix1 k)).toInt < 200) (hlt : (rel (ix1 k)).toNat < 200) :
    ∑ j : Fin 256, Pay.ind (clipped rel (ix2 k (0 : Fin 1))) j
        * (table W A (ix2 j (⟨64 + q.val, by omega⟩ : Fin 128)) : EReal)
      = A (ix2 (⟨(rel (ix1 k)).toNat, hlt⟩ : Fin 200) q) := by
  rw [clipped_apply rel k hr]
  rw [Cert.OneHot.sum_eq (K := 256) (by decide) (rel (ix1 k)) (by omega)
    (fun j => (table W A (ix2 j (⟨64 + q.val, by omega⟩ : Fin 128)) : EReal))]
  exact table_right W A ⟨(rel (ix1 k)).toNat, by omega⟩ hlt q

end Cert.KernelIdeal.Table

end
-- ==== Proof.KernelRun.lean ====
/-
  The kernel program's run, with its result named.

  After the region the host widens the message array, scatter-adds its rows into a zero array by destination node and
  adds the node features. The region's output array is `msg` of the arrays the region found, and those are host
  functions of the arguments: the source rows `h[src]`, the edge features, the clipped relation numbers as a column,
  and the two padded tables side by side. So the program's result is one function `result` of its seven arguments.
-/
import proofs.«428302_j33526514713105_3_alg».proof.Proof.KernelMsg
import proofs.«428302_j33526514713105_3_alg».proof.Proof.KernelTable

set_option maxRecDepth 16384

noncomputable section

namespace Cert.KernelIdeal.Run

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The gathered source rows `h[src]`: a negative node number wrapped by the 100000 nodes, then a row gather. -/
def srcRows (h : FVec Ideal S100000x64 .f32) (src : IVec S1600000 32) : FVec Ideal S1600000x64 .f32 :=
  Host.gather gather_S100000x64_S1600000x1_S1600000x64_1_0_n_n_0_1_164 h
    (broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src))

/-- The source rows the region finds. -/
theorem V_src (c : Dev nD) : (V m c main_v13 : FVec Ideal S1600000x64 .f32)
    = srcRows (m ((c : Thread nD τ).loc main_arg0)) (m ((c : Thread nD τ).loc main_arg4)) := by
  have key : ∀ X : FVec Ideal S1600000x64 .f32,
      srcRows (m ((c : Thread nD τ).loc main_arg0)) (m ((c : Thread nD τ).loc main_arg4)) = X →
      (V m c main_v13 : FVec Ideal S1600000x64 .f32) = X := by
    intro X hX
    dsimp only [Gen.V, Gen.V0]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results
    exact hX
  exact key _ rfl

/-- The program's result as one function of its arguments: the node features plus the scatter-add, by destination, of
    the widened message array. -/
def result (h : FVec Ideal S100000x64 .f32) (e : FVec Ideal S1600000x64 .f32) (W A : FVec Ideal S200x64 .f32)
    (src dst rel : IVec S1600000 32) : FVec Ideal S100000x64 .f32 :=
  addf h (Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (extf .f32 (Msg.msg (srcRows h src) e (Table.clipped rel) (Table.table W A)) bitsLt_bf16_f32))

/-- What the lines after the region leave in the result buffer. -/
theorem tail_eq (c : Dev nD) :
    (Pipeline.afterTail₀ cfgs (dats m) 0 (V0 m) [hostOps1] c main_v19 : FVec Ideal S100000x64 .f32)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  have h0 : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  have h5 : Pipeline.withArrays (cfgs 0).spec c (V0 m c) (fun w => (dats m 0 c).arrAt w (cfgs 0).N)
      (Proc.devRef .tc main_arg5) = m ((c : Thread nD τ).loc main_arg5) :=
    (Pipeline.withArrays_of_ne _ c (V0 m c) _ main_arg5
      (by exact (by decide : ∀ w, Pipeline.arrRef spec0 w ≠ main_arg5))).trans (V_main_arg5 m c)
  have h14 : Pipeline.withArrays (cfgs 0).spec c (V0 m c) (fun w => (dats m 0 c).arrAt w (cfgs 0).N)
      (Proc.devRef .tc main_v14)
      = Msg.msg (V m c main_v13) (V m c main_arg1) (V m c main_v6) (V m c main_v5) :=
    (Pipeline.withArrays_arr spec0 launch0.win.arr_inj c _ _ 4).trans (Msg.final m c)
  unfold Pipeline.afterTail₀
  show StableHlo.after hostOps1 _ (Proc.devRef .tc main_v19) = _
  after_results
  rw [h0, h5, h14, V_src, V_main_arg1, Table.V_rel, Table.V_table]
  rfl

/-- THE RUN: every weakly fair execution terminates with the result buffer at `result` of the arguments and the
    arguments unchanged. -/
theorem run : θ_run defs (onTc (τ := τ) (main (F := Ideal))) ⟨m, fun _ => 0, ρ⟩ fun r => ∀ c : Dev nD,
      r.2.mem ((c.tc : Thread nD τ).loc main_v19)
        = result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.RefGather.lean ====
/-
  The reference's relation gather read at an index.

  The reference reads `weight[rel]` (and `attention[rel]`) as jnp does: a negative row number is first wrapped by adding
  the table's 200 rows, then the row gather clamps the result into the table. For a relation number in `[0, 200)` the
  wrap leaves it alone and the clamp does nothing, so entry `(k, q)` of the gathered array is the table's entry
  `(rel k, q)`.
-/
import proofs.«428302_j33526514713105_3_alg».proof.ReferenceIdeal
import proofs.«428302_j33526514713105_3_alg».proof.Proof.Gen.ReferenceIdeal
import proofs.«428302_j33526514713105_3_alg».proof.Proof.LibRowGather
import Idealize.ShloMosaic.Lib.Pipeline.Value
import Idealize.ShloMosaic.Lib.Affine
import Idealize.ShloMosaic.PureOps.Ideal

noncomputable section

namespace Cert.ReferenceIdeal.RefValue

open Cert.ReferenceIdeal Cert.ReferenceIdeal.Gen Idealize.ShloMosaic Idealize.ShloMosaic.ValueIdx Idealize.ShloMosaic.RowGather

/-- The column of row numbers the reference gathers by: each relation number, wrapped when negative. -/
def wrapped (rel : IVec S1600000 32) : IVec S1600000x1 32 :=
  broadcastInDim S1600000x1 ![0] bcast_S1600000_S1600000x1_0
    (select (cmpi .slt rel (broadcastInDim S1600000 ![] bcast_S_S1600000 (constantI S_ 32 0#32)))
      (addi rel (broadcastInDim S1600000 ![] bcast_S_S1600000 (constantI S_ 32 200#32))) rel)

/-- A non-negative relation number is not wrapped. -/
theorem wrapped_apply (rel : IVec S1600000 32) (k : Fin 1600000) (h0 : 0 ≤ (rel (ix1 k)).toInt) :
    wrapped rel (ix2 k (0 : Fin 1)) = rel (ix1 k) := by
  unfold wrapped
  rw [broadcastInDim_apply _ _ _ (ix2 k (0 : Fin 1)) (ix1 k) (fun a => by
    match a with
    | ⟨0, _⟩ => rfl)]
  show Scalar.select (IntOp.cmpi .slt (rel (ix1 k)) 0#32) (IntOp.addi (rel (ix1 k)) 200#32) (rel (ix1 k)) = rel (ix1 k)
  have hn : IntOp.cmpi .slt (rel (ix1 k)) 0#32 ≠ 1#1 := fun h => by
    have h' := IntOp.cmpi_slt.1 h
    have z : (0#32 : BitVec 32).toInt = 0 := by decide
    rw [z] at h'
    omega
  unfold Scalar.select
  exact if_neg hn

/-- THE GATHER READ AT `(k, q)` for a relation number in `[0, 200)`: the table's row `rel k`. -/
theorem gather_rel (W : FVec Ideal S200x64 .f32) (rel : IVec S1600000 32) (k : Fin 1600000) (q : Fin 64)
    (hr : 0 ≤ (rel (ix1 k)).toInt ∧ (rel (ix1 k)).toInt < 200) (hlt : (rel (ix1 k)).toNat < 200) :
    Host.gather gather_S200x64_S1600000x1_S1600000x64_1_0_n_n_0_1_164 W (wrapped rel) (ix2 k q)
      = W (ix2 (⟨(rel (ix1 k)).toNat, hlt⟩ : Fin 200) q) := by
  show Host.gather (rowDims 200 64 1600000 gather_S200x64_S1600000x1_S1600000x64_1_0_n_n_0_1_164_wf) W (wrapped rel) (ix2 k q) = _
  refine (gather_rows_apply (by decide) _ W (wrapped rel) k q).trans ?_
  refine congrArg W (funext fun a => Fin.ext ?_)
  match a with
  | ⟨0, _⟩ =>
    show min (wrapped rel (ix2 k (0 : Fin 1))).toInt.toNat (200 - 1) = (rel (ix1 k)).toNat
    rw [wrapped_apply rel k hr.1]
    have e := BitVec.toInt_eq_toNat_cond (rel (ix1 k))
    have hb := (rel (ix1 k)).isLt
    omega
  | ⟨1, _⟩ => rfl

end Cert.ReferenceIdeal.RefValue

end
-- ==== Proof.Bridge.lean ====
/-
  The two programs compute one function.

  The reference's message for edge `k`, feature `q` is `h[src k, q] · weight[rel k, q] + e[k, q] · attention[rel k, q]`;
  the kernel's is `h[src k, q] · Σ_j [rel k = j] · table[j, q] + e[k, q] · Σ_j [rel k = j] · table[j, 64 + q]`, which for a
  relation number in `[0, 200)` is the same number: the indicator row picks row `rel k` of the table, whose two halves
  are the weight and attention rows. Both programs read `h[src]` by the same gather, and both finish with the same
  scatter-add by destination node and the same addition of the node features, so equal message arrays give equal
  results.
-/
import proofs.«428302_j33526514713105_3_alg».proof.Proof.KernelRun
import proofs.«428302_j33526514713105_3_alg».proof.Proof.RefGather
import proofs.«428302_j33526514713105_3_alg».proof.Proof.Gen.ReferenceIdeal.Run

noncomputable section

namespace Cert.ReferenceIdeal.RefValue

open Cert.ReferenceIdeal Cert.ReferenceIdeal.Gen Idealize.ShloMosaic Idealize.ShloMosaic.ValueIdx

/-- The reference's message array as a function of its arguments. -/
def refMsg (h : FVec Ideal S100000x64 .f32) (e : FVec Ideal S1600000x64 .f32) (W A : FVec Ideal S200x64 .f32)
    (src rel : IVec S1600000 32) : FVec Ideal S1600000x64 .f32 :=
  addf (mulf (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))
    (Host.gather gather_S200x64_S1600000x1_S1600000x64_1_0_n_n_0_1_164 W (wrapped rel)))
    (mulf e (Host.gather gather_S200x64_S1600000x1_S1600000x64_1_0_n_n_0_1_164 A (wrapped rel)))

/-- The reference's result as a function of its arguments: the term its run ends at. -/
def refResult (h : FVec Ideal S100000x64 .f32) (e : FVec Ideal S1600000x64 .f32) (W A : FVec Ideal S200x64 .f32)
    (src dst rel : IVec S1600000 32) : FVec Ideal S100000x64 .f32 :=
  addf h (Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) (refMsg h e W A src rel))

end Cert.ReferenceIdeal.RefValue

namespace Cert.Bridge

open Idealize.ShloMosaic Idealize.ShloMosaic.ValueIdx
open Cert.KernelIdeal (S100000x64 S1600000x64 S200x64 S1600000 S1600000x1 S256x128)

/-- The kernel's message array at edge `k`, feature `q`. -/
theorem msg_apply (X E : FVec Ideal S1600000x64 .f32) (R : IVec S1600000x1 32) (T : FVec Ideal S256x128 .bf16)
    (k : Fin 1600000) (q : Fin 64) :
    (Cert.KernelIdeal.Msg.msg X E R T (ix2 k q) : EReal)
      = (X (ix2 k q) : EReal) * (∑ j : Fin 256, Cert.KernelIdeal.Pay.ind (R (ix2 k (0 : Fin 1))) j
          * (T (ix2 j (⟨0 + q.val, by omega⟩ : Fin 128)) : EReal))
        + (E (ix2 k q) : EReal) * (∑ j : Fin 256, Cert.KernelIdeal.Pay.ind (R (ix2 k (0 : Fin 1))) j
          * (T (ix2 j (⟨64 + q.val, by omega⟩ : Fin 128)) : EReal)) := rfl

/-- THE MESSAGE ARRAYS AGREE when every relation number lies in `[0, 200)`. -/
theorem msg_eq (h : FVec Ideal S100000x64 .f32) (e : FVec Ideal S1600000x64 .f32) (W A : FVec Ideal S200x64 .f32)
    (src rel : IVec S1600000 32)
    (hrel : ∀ k : Fin 1600000, 0 ≤ (rel (ix1 k)).toInt ∧ (rel (ix1 k)).toInt < 200) :
    Cert.ReferenceIdeal.RefValue.refMsg h e W A src rel
      = extf .f32 (Cert.KernelIdeal.Msg.msg (Cert.KernelIdeal.Run.srcRows h src) e (Cert.KernelIdeal.Table.clipped rel)
          (Cert.KernelIdeal.Table.table W A)) Cert.KernelIdeal.Gen.bitsLt_bf16_f32 := by
  funext i
  obtain ⟨k, q, rfl⟩ : ∃ (k : Fin 1600000) (q : Fin 64), i = ix2 k q := ⟨i 0, i 1, eq_ix2 i⟩
  have hlt : (rel (ix1 k)).toNat < 200 := by
    have e1 := BitVec.toInt_eq_toNat_cond (rel (ix1 k))
    have h1 := hrel k
    have hb := (rel (ix1 k)).isLt
    omega
  refine Eq.trans ?_ (msg_apply _ _ _ _ k q).symm
  rw [Cert.KernelIdeal.Table.sum_left W A rel k q (hrel k) hlt, Cert.KernelIdeal.Table.sum_right W A rel k q (hrel k) hlt]
  unfold Cert.ReferenceIdeal.RefValue.refMsg
  show (_ : EReal) * (Host.gather _ W (Cert.ReferenceIdeal.RefValue.wrapped rel) (ix2 k q) : EReal)
    + (e (ix2 k q) : EReal) * (Host.gather _ A (Cert.ReferenceIdeal.RefValue.wrapped rel) (ix2 k q) : EReal) = _
  rw [Cert.ReferenceIdeal.RefValue.gather_rel W rel k q (hrel k) hlt, Cert.ReferenceIdeal.RefValue.gather_rel A rel k q (hrel k) hlt]
  rfl

/-- THE RESULTS AGREE when every relation number lies in `[0, 200)`. -/
theorem result_eq (h : FVec Ideal S100000x64 .f32) (e : FVec Ideal S1600000x64 .f32) (W A : FVec Ideal S200x64 .f32)
    (src dst rel : IVec S1600000 32)
    (hrel : ∀ k : Fin 1600000, 0 ≤ (rel (ix1 k)).toInt ∧ (rel (ix1 k)).toInt < 200) :
    Cert.ReferenceIdeal.RefValue.refResult h e W A src dst rel = Cert.KernelIdeal.Run.result h e W A src dst rel := by
  unfold Cert.ReferenceIdeal.RefValue.refResult Cert.KernelIdeal.Run.result
  rw [msg_eq h e W A src rel hrel]
  rfl

end Cert.Bridge

end
-- ==== Proof.lean ====
/-
  One relational message-passing layer: `out = h + Σ_{edges k into a node} (h[src k] · weight[rel k] + e[k] · attention[rel k])`.

  The kernel gathers `h[src]` on the host, computes the messages block by block (selecting the weight and attention
  rows of each edge's relation by an indicator-row contraction with a padded table holding both), and scatter-adds
  them by destination on the host; the reference gathers the weight and attention rows directly. Over the extended
  reals, for relation numbers in `[0, 200)` (the precondition's added conjunct: the rows the tables have), the two
  message arrays are equal entry by entry (the indicator row of `rel k` picks table row `rel k`), and the two programs
  share the source gather and the closing scatter-add and addition, so the results are equal.

  The three frames: the two kernel programs' frames as generated, the reference's from its run. The idealization
  rewrote no operation, so `preserves` is trivial.
-/
import proofs.«428302_j33526514713105_3_alg».proof.Defs
import proofs.«428302_j33526514713105_3_alg».proof.Proof.Gen.Kernel
import proofs.«428302_j33526514713105_3_alg».proof.Proof.Gen.Kernel.Skeleton
import proofs.«428302_j33526514713105_3_alg».proof.Proof.Gen.Kernel.Launch
import proofs.«428302_j33526514713105_3_alg».proof.Proof.Gen.Kernel.Points
import proofs.«428302_j33526514713105_3_alg».proof.Proof.Gen.Kernel.Frame
import proofs.«428302_j33526514713105_3_alg».proof.Proof.Gen.KernelIdeal
import proofs.«428302_j33526514713105_3_alg».proof.Proof.Gen.KernelIdeal.Skeleton
import proofs.«428302_j33526514713105_3_alg».proof.Proof.Gen.KernelIdeal.Launch
import proofs.«428302_j33526514713105_3_alg».proof.Proof.Gen.KernelIdeal.Points
import proofs.«428302_j33526514713105_3_alg».proof.Proof.Gen.KernelIdeal.Frame
import proofs.«428302_j33526514713105_3_alg».proof.Proof.Gen.ReferenceIdeal
import proofs.«428302_j33526514713105_3_alg».proof.Proof.Gen.ReferenceIdeal.Run
import proofs.«428302_j33526514713105_3_alg».proof.Proof.Gen.Pre_finite_inputs
import proofs.«428302_j33526514713105_3_alg».proof.Proof.PreDecode
import proofs.«428302_j33526514713105_3_alg».proof.Proof.KernelRun
import proofs.«428302_j33526514713105_3_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every relation number in `[0, 200)`: the kernel program ends at
    `result` of its arguments, the reference at its own term of the same arguments, and the two are one function. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.Bridge.result_eq _ _ _ _ _ _ _
    (fun k => Cert.Pre_finite_inputs.Decode.rel_range _ _ _ _ _ _ _ (hpre c) (ix1 k))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
